-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x2048 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  main_v23

def fn {F : FTy → Type} [FloatOps F] (main_arg0 : FVec F S4x8192x2048 .f32) (main_arg1 : FVec F S768x2048 .f32) (main_arg2 : FVec F S512x2048 .f32) (main_arg3 : FVec F S64x2048 .f32) (main_arg4 : FVec F S64x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S_ : Shape := ⟨0, ![]⟩
abbrev S2048 : Shape := ⟨1, ![2048]⟩
abbrev S2048x64 : Shape := ⟨2, ![2048, 64]⟩
abbrev S2048x127 : Shape := ⟨2, ![2048, 127]⟩
abbrev S2048x1 : Shape := ⟨2, ![2048, 1]⟩
abbrev S2048x256 : Shape := ⟨2, ![2048, 256]⟩
abbrev S4x8192x1 : Shape := ⟨3, ![4, 8192, 1]⟩
abbrev S1x1024x2048 : Shape := ⟨3, ![1, 1024, 2048]⟩
abbrev S1x1024x1 : Shape := ⟨3, ![1, 1024, 1]⟩
abbrev S1024x2048 : Shape := ⟨2, ![1024, 2048]⟩
abbrev S1024x256 : Shape := ⟨2, ![1024, 256]⟩
abbrev S1024x64 : Shape := ⟨2, ![1024, 64]⟩
abbrev S1024x1 : Shape := ⟨2, ![1024, 1]⟩
abbrev S1024 : Shape := ⟨1, ![1024]⟩

abbrev nBuf : Space → Nat
  | .hbm => 18
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S768x2048, .f32⟩
  | .hbm, ⟨2, _⟩ => ⟨S512x2048, .f32⟩
  | .hbm, ⟨3, _⟩ => ⟨S64x2048, .f32⟩
  | .hbm, ⟨4, _⟩ => ⟨S64x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048x127, .f32⟩
  | .hbm, ⟨14, _⟩ => ⟨S2048x1, .f32⟩
  | .hbm, ⟨15, _⟩ => ⟨S2048x256, .f32⟩
  | .hbm, ⟨16, _⟩ => ⟨S2048x256, .bf16⟩
  | .hbm, ⟨17, _⟩ => ⟨S4x8192x1, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x256, .bf16⟩
  | .local _ .vmem, ⟨3, _⟩ => ⟨S1x1024x1, .f32⟩
  | .local _ .vmem, ⟨4, _⟩ => ⟨S1x1024x1, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S768x2048_S2048_d0 : S768x2048.ReducesTo [0] S2048
  h_S_ : 0 < S_.numel
  reducesTo_S512x2048_S2048_d0 : S512x2048.ReducesTo [0] S2048
  transposes_S64x2048_S2048x64_1_0 : S64x2048.Transposes [1, 0] S2048x64
  bcast_S_S2048x127 : S_.BroadcastsInDim S2048x127 (![] : Fin 0 → Fin S2048x127.rank)
  bcast_S2048_S2048x1_0 : S2048.BroadcastsInDim S2048x1 (![0] : Fin 1 → Fin S2048x1.rank)
  concatenates_S2048x64_S2048x64_S2048x1_S2048x127_S2048x256_d1 : Shape.Concatenates [S2048x64, S2048x64, S2048x1, S2048x127] S2048x256 1
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S1024x256_o0_0_S1024x64 : S1024x256.Slices ![0, 0] S1024x64
  slices_S1024x256_o0_64_S1024x64 : S1024x256.Slices ![0, 64] S1024x64
  slices_S1024x256_o0_128_S1024x1 : S1024x256.Slices ![0, 128] S1024x1
  reduces_S1024x64_S1024 : S1024x64.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S4x8192x768 : Shape := ⟨3, ![4, 8192, 768]⟩
abbrev S4x8192x512 : Shape := ⟨3, ![4, 8192, 512]⟩
abbrev S4x8192x64x8 : Shape := ⟨4, ![4, 8192, 64, 8]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S768x2048, .f32⟩
  | .hbm, ⟨2, _⟩ => ⟨S512x2048, .f32⟩
  | .hbm, ⟨3, _⟩ => ⟨S64x2048, .f32⟩
  | .hbm, ⟨4, _⟩ => ⟨S64x2048, .f32⟩
  | .hbm, ⟨5, _⟩ => ⟨S4x8192x768, .f32⟩
  | .hbm, ⟨6, _⟩ => ⟨S4x8192x512, .f32⟩
  | .hbm, ⟨7, _⟩ => ⟨S4x8192x64x8, .f32⟩
  | .hbm, ⟨8, _⟩ => ⟨S4x8192x64, .f32⟩
  | .hbm, ⟨9, _⟩ => ⟨S4x8192x64, .f32⟩
  | .hbm, ⟨10, _⟩ => ⟨S4x8192x64, .f32⟩
  | .hbm, ⟨11, _⟩ => ⟨S_, .f32⟩
  | .hbm, ⟨12, _⟩ => ⟨S4x8192x64, .f32⟩
  | .hbm, ⟨13, _⟩ => ⟨S4x8192x64, .f32⟩
  | .hbm, ⟨14, _⟩ => ⟨S_, .f32⟩
  | .hbm, ⟨15, _⟩ => ⟨S4x8192x64, .f32⟩
  | .hbm, ⟨16, _⟩ => ⟨S4x8192x64, .f32⟩
  | .hbm, ⟨17, _⟩ => ⟨S4x8192x64, .f32⟩
  | .hbm, ⟨18, _⟩ => ⟨S4x8192x64, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x64, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x1, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  shapeCasts_S4x8192x512_S4x8192x64x8 : S4x8192x512.ShapeCasts S4x8192x64x8
  bcast_S_S4x8192x64 : S_.BroadcastsInDim S4x8192x64 (![] : Fin 0 → Fin S4x8192x64.rank)
  reducesTo_S4x8192x768_S4x8192_d2 : S4x8192x768.ReducesTo [2] S4x8192
  h_S_ : 0 < S_.numel
  bcast_S4x8192_S4x8192x1_0_1 : S4x8192.BroadcastsInDim S4x8192x1 (![0, 1] : Fin 2 → Fin S4x8192x1.rank)
  reducesTo_S4x8192x64x8_S4x8192x64_d3 : S4x8192x64x8.ReducesTo [3] S4x8192x64
  reducesTo_S4x8192x64_S4x8192_d2 : S4x8192x64.ReducesTo [2] S4x8192
  dot_S4x8192x2048_S768x2048_S4x8192x768_2_1_01_0_n_n_wf : DotDims.WF S4x8192x2048 S768x2048 S4x8192x768 [2] [1] [0, 1] [0] [] []
  dot_S4x8192x2048_S512x2048_S4x8192x512_2_1_01_0_n_n_wf : DotDims.WF S4x8192x2048 S512x2048 S4x8192x512 [2] [1] [0, 1] [0] [] []
  dot_S4x8192x2048_S64x2048_S4x8192x64_2_1_01_0_n_n_wf : DotDims.WF S4x8192x2048 S64x2048 S4x8192x64 [2] [1] [0, 1] [0] [] []

variable [Facts₀]

def dot_S4x8192x2048_S768x2048_S4x8192x768_2_1_01_0_n_n : DotDims S4x8192x2048 S768x2048 S4x8192x768 where
  lhsContracting := [2]
  rhsContracting := [1]
  lhsNonContracting := [0, 1]
  rhsNonContracting := [0]
  lhsBatch := []
  rhsBatch := []
  wf := dot_S4x8192x2048_S768x2048_S4x8192x768_2_1_01_0_n_n_wf
def dot_S4x8192x2048_S512x2048_S4x8192x512_2_1_01_0_n_n : DotDims S4x8192x2048 S512x2048 S4x8192x512 where
  lhsContracting := [2]
  rhsContracting := [1]
  lhsNonContracting := [0, 1]
  rhsNonContracting := [0]
  lhsBatch := []
  rhsBatch := []
  wf := dot_S4x8192x2048_S512x2048_S4x8192x512_2_1_01_0_n_n_wf
def dot_S4x8192x2048_S64x2048_S4x8192x64_2_1_01_0_n_n : DotDims S4x8192x2048 S64x2048 S4x8192x64 where
  lhsContracting := [2]
  rhsContracting := [1]
  lhsNonContracting := [0, 1]
  rhsNonContracting := [0]
  lhsBatch := []
  rhsBatch := []
  wf := dot_S4x8192x2048_S64x2048_S4x8192x64_2_1_01_0_n_n_wf

class Facts : Prop extends Facts₀ where

variable [Facts]
-- ==== Proof.Launched.lean ====
/-
  The frame of the launch, and what the run leaves in the result array.

  @main is twelve host operations — they build the fused weight matrix and write no argument — and then one launch over a
  4 × 8 grid. At a grid point the body reads its block of 1024 activation rows and the whole fused matrix, reads and
  discards what its result buffer held, and stores one whole block of 1024 results. So the body's triple holds with the
  result buffer at any contents beforehand, each input buffer is left as found, and after the point the result buffer
  holds the stored value: a function of the two input blocks alone. The pipeline's run then terminates without a fault,
  leaves every argument array as launched, and leaves the result array assembled from the blocks the points wrote back.
-/
import proofs.«182257_j59442347376718_1_alg».proof.Kernel
import proofs.«182257_j59442347376718_1_alg».proof.Proof.Gen.Kernel.Launch
import proofs.«182257_j59442347376718_1_alg».proof.Proof.Gen.Kernel.Skeleton
import proofs.«182257_j59442347376718_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of core c holds when the launch begins: the launch contents after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_unwritten (c : Dev nD) (b : Ref sig .tc)
    (hb : b ≠ main_cst ∧ b ≠ main_v0 ∧ b ≠ main_cst_0 ∧ b ≠ main_v1 ∧ b ≠ main_v2 ∧ b ≠ main_v3 ∧ b ≠ main_v4 ∧ b ≠ main_cst_1
      ∧ b ≠ main_v5 ∧ b ≠ main_v6 ∧ b ≠ main_v7 ∧ b ≠ main_v8) :
    V m c b = m ((c : Thread nD τ).loc b) := by
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.Forall, StableHlo.nullary_writes, StableHlo.unary_writes, StableHlo.binary_writes,
    StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)

/-! ## The windows' blocks -/

/-- Window w's block at grid point t, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activation window's buffer holds the point's block when the body starts, for any proof data over these arrays
    whose body leaves that buffer as found. -/
theorem before_acts_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the fused matrix's window, fetched once and kept. -/
theorem before_wts_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with the pipeline's arrays as the proof data says and every other unwritten buffer as the launch
    found it, the five argument arrays end as launched: the activations are a staged input, the four weight matrices
    are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the result buffer -/

/-- The whole block of the activation buffer, of the fused matrix's buffer, and of the result buffer. -/
abbrev rActs : Rect S1x1024x2048 := Rect.unit (s := S1x1024x2048) ![0, 0, 0] S1x1024x2048.size inb_S1x1024x2048_S1x1024x2048_0_0_0
abbrev rWts : Rect S2048x256 := Rect.unit (s := S2048x256) ![0, 0] S2048x256.size inb_S2048x256_S2048x256_0_0
abbrev rRes : Rect S1x1024x1 := Rect.unit (s := S1x1024x1) ![0, 0, 0] S1x1024x1.size inb_S1x1024x1_S1x1024x1_0_0_0

/-- The result buffer after the body: its one whole-block store, of the stored value computed from the two loads. -/
def stored (x0 : Vec F S1x1024x2048 .f32) (x1 : Vec F S2048x256 .bf16) : Vec F S1x1024x1 .f32 :=
  View.canon [⟨rRes, k0_pay1 (View.ld x0 rActs) (View.ld x1 rWts)⟩]

/-- The one store covers the buffer. -/
theorem stored_cover (p0 : Vec F S1x1024x1 .f32) (y : S1x1024x1.Idx) :
    ∃ pc ∈ ([⟨rRes, p0⟩] : List (View.Piece (Elt F) S1x1024x1 .f32)), y ∈ pc.1.set :=
  View.cover_of_tiled [⟨rRes, p0⟩] S1x1024x1.size (by rfl) y

/-! ## The body's triple -/

set_option maxHeartbeats 1000000 in
/-- The body on whole buffers, the two inputs at contents x0 and x1 and the result buffer at anything, runs to the
    continuation with the inputs as they were and the result buffer at `stored x0 x1`. -/
theorem sound_kernel (c : Dev nD) (E : Set ℕ) (i : grid0.Coords) (arg2 : Memref sig .tc .vmem S1x1024x2048 .f32) (harg2 : arg2.IsWhole)
    (arg3 : Memref sig .tc .vmem S2048x256 .bf16) (harg3 : arg3.IsWhole) (arg4 : Memref sig .tc .vmem S1x1024x1 .f32) (harg4 : arg4.IsWhole)
    (x0 : Vec F S1x1024x2048 .f32) (x1 : Vec F S2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The pipeline's proof data -/

/-- On core c: the arrays as the launch finds them; after the body at point t each input buffer at its block and the
    result buffer at the stored value of the two input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => stored (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_acts (c : Dev nD) (t : Fin cfg0.N) : (dats m 0 c).after 0 t = iblk m c 0 t := by dsimp only [dats]
theorem after_wts (c : Dev nD) (t : Fin cfg0.N) : (dats m 0 c).after 1 t = iblk m c 1 t := by dsimp only [dats]
theorem after_res (c : Dev nD) (t : Fin cfg0.N) : (dats m 0 c).after 2 t = stored (iblk m c 0 t) (iblk m c 1 t) := by dsimp only [dats]

theorem before_acts (c : Dev nD) (t : Fin cfg0.N) (d) : (dats m 0 c).before 0 t d = iblk m c 0 t :=
  before_acts_of m (dats m 0 c) (A_eq m c 0) (after_acts m c) t d
theorem before_wts (c : Dev nD) (t : Fin cfg0.N) (d) : (dats m 0 c).before 1 t d = iblk m c 1 t :=
  before_wts_of m (dats m 0 c) (A_eq m c 1) (after_wts m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what is owed pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_acts, before_wts]
  rw [show (dats m 0 c).Φ t.succ = (dats m 0 c).Φ t.castSucc from rfl,
    show (dats m 0 c).owesAt () t.succ = (dats m 0 c).owesAt () t.castSucc from rfl,
    after_acts, after_wts, after_res]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every array of the pipeline at what the proof
    data assembles and every other unwritten buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Launched

end
-- ==== Proof.LaunchedIdeal.lean ====
/-
  The frame of the launch, and what the run leaves in the result array.

  @main is twelve host operations — they build the fused weight matrix and write no argument — and then one launch over a
  4 × 8 grid. At a grid point the body reads its block of 1024 activation rows and the whole fused matrix, reads and
  discards what its result buffer held, and stores one whole block of 1024 results. So the body's triple holds with the
  result buffer at any contents beforehand, each input buffer is left as found, and after the point the result buffer
  holds the stored value: a function of the two input blocks alone. The pipeline's run then terminates without a fault,
  leaves every argument array as launched, and leaves the result array assembled from the blocks the points wrote back.
-/
import proofs.«182257_j59442347376718_1_alg».proof.KernelIdeal
import proofs.«182257_j59442347376718_1_alg».proof.Proof.Gen.KernelIdeal.Launch
import proofs.«182257_j59442347376718_1_alg».proof.Proof.Gen.KernelIdeal.Skeleton
import proofs.«182257_j59442347376718_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of core c holds when the launch begins: the launch contents after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_unwritten (c : Dev nD) (b : Ref sig .tc)
    (hb : b ≠ main_cst ∧ b ≠ main_v0 ∧ b ≠ main_cst_0 ∧ b ≠ main_v1 ∧ b ≠ main_v2 ∧ b ≠ main_v3 ∧ b ≠ main_v4 ∧ b ≠ main_cst_1
      ∧ b ≠ main_v5 ∧ b ≠ main_v6 ∧ b ≠ main_v7 ∧ b ≠ main_v8) :
    V m c b = m ((c : Thread nD τ).loc b) := by
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.Forall, StableHlo.nullary_writes, StableHlo.unary_writes, StableHlo.binary_writes,
    StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)

/-! ## The windows' blocks -/

/-- Window w's block at grid point t, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activation window's buffer holds the point's block when the body starts, for any proof data over these arrays
    whose body leaves that buffer as found. -/
theorem before_acts_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the fused matrix's window, fetched once and kept. -/
theorem before_wts_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with the pipeline's arrays as the proof data says and every other unwritten buffer as the launch
    found it, the five argument arrays end as launched: the activations are a staged input, the four weight matrices
    are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the result buffer -/

/-- The whole block of the activation buffer, of the fused matrix's buffer, and of the result buffer. -/
abbrev rActs : Rect S1x1024x2048 := Rect.unit (s := S1x1024x2048) ![0, 0, 0] S1x1024x2048.size inb_S1x1024x2048_S1x1024x2048_0_0_0
abbrev rWts : Rect S2048x256 := Rect.unit (s := S2048x256) ![0, 0] S2048x256.size inb_S2048x256_S2048x256_0_0
abbrev rRes : Rect S1x1024x1 := Rect.unit (s := S1x1024x1) ![0, 0, 0] S1x1024x1.size inb_S1x1024x1_S1x1024x1_0_0_0

/-- The result buffer after the body: its one whole-block store, of the stored value computed from the two loads. -/
def stored (x0 : Vec F S1x1024x2048 .f32) (x1 : Vec F S2048x256 .bf16) : Vec F S1x1024x1 .f32 :=
  View.canon [⟨rRes, k0_pay1 (View.ld x0 rActs) (View.ld x1 rWts)⟩]

/-- The one store covers the buffer. -/
theorem stored_cover (p0 : Vec F S1x1024x1 .f32) (y : S1x1024x1.Idx) :
    ∃ pc ∈ ([⟨rRes, p0⟩] : List (View.Piece (Elt F) S1x1024x1 .f32)), y ∈ pc.1.set :=
  View.cover_of_tiled [⟨rRes, p0⟩] S1x1024x1.size (by rfl) y

/-! ## The body's triple -/

set_option maxHeartbeats 1000000 in
/-- The body on whole buffers, the two inputs at contents x0 and x1 and the result buffer at anything, runs to the
    continuation with the inputs as they were and the result buffer at `stored x0 x1`. -/
theorem sound_kernel (c : Dev nD) (E : Set ℕ) (i : grid0.Coords) (arg2 : Memref sig .tc .vmem S1x1024x2048 .f32) (harg2 : arg2.IsWhole)
    (arg3 : Memref sig .tc .vmem S2048x256 .bf16) (harg3 : arg3.IsWhole) (arg4 : Memref sig .tc .vmem S1x1024x1 .f32) (harg4 : arg4.IsWhole)
    (x0 : Vec F S1x1024x2048 .f32) (x1 : Vec F S2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The pipeline's proof data -/

/-- On core c: the arrays as the launch finds them; after the body at point t each input buffer at its block and the
    result buffer at the stored value of the two input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => stored (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_acts (c : Dev nD) (t : Fin cfg0.N) : (dats m 0 c).after 0 t = iblk m c 0 t := by dsimp only [dats]
theorem after_wts (c : Dev nD) (t : Fin cfg0.N) : (dats m 0 c).after 1 t = iblk m c 1 t := by dsimp only [dats]
theorem after_res (c : Dev nD) (t : Fin cfg0.N) : (dats m 0 c).after 2 t = stored (iblk m c 0 t) (iblk m c 1 t) := by dsimp only [dats]

theorem before_acts (c : Dev nD) (t : Fin cfg0.N) (d) : (dats m 0 c).before 0 t d = iblk m c 0 t :=
  before_acts_of m (dats m 0 c) (A_eq m c 0) (after_acts m c) t d
theorem before_wts (c : Dev nD) (t : Fin cfg0.N) (d) : (dats m 0 c).before 1 t d = iblk m c 1 t :=
  before_wts_of m (dats m 0 c) (A_eq m c 1) (after_wts m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what is owed pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_acts, before_wts]
  rw [show (dats m 0 c).Φ t.succ = (dats m 0 c).Φ t.castSucc from rfl,
    show (dats m 0 c).owesAt () t.succ = (dats m 0 c).owesAt () t.castSucc from rfl,
    after_acts, after_wts, after_res]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every array of the pipeline at what the proof
    data assembles and every other unwritten buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Launched

end
-- ==== Proof.Wcat.lean ====
/-
  The fused weight matrix [2048, 256] the host builds before the launch, read at an entry: columns 0..63 are the
  rows of wb transposed, columns 64..127 the rows of wa transposed, column 128 the column sums of wq plus the
  column sums of wz, and the remaining 127 columns are zero. The narrowing to the 16-bit format is the identity on
  the extended reals.
-/
import proofs.«182257_j59442347376718_1_alg».proof.KernelIdeal
import proofs.«182257_j59442347376718_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Wcat

open Idealize.ShloMosaic Idealize.ShloMosaic.ValueIdx Cert.KernelIdeal
open Cert.KernelIdeal.Facts₀ Cert.KernelIdeal.Facts

variable {F : FTy → Type} [FloatOps F] [Cert.KernelIdeal.Facts]

/-- The host operations' term for the fused weight matrix, from the four weight matrices. -/
def wcat (wq : FVec F S768x2048 .f32) (wz : FVec F S512x2048 .f32) (wb wa : FVec F S64x2048 .f32) : FVec F S2048x256 .bf16 :=
  truncf .bf16 (concatenate S2048x256 1
    [⟨S2048x64, transpose S2048x64 [1, 0] wb transposes_S64x2048_S2048x64_1_0⟩,
     ⟨S2048x64, transpose S2048x64 [1, 0] wa transposes_S64x2048_S2048x64_1_0⟩,
     ⟨S2048x1, broadcastInDim S2048x1 ![0] bcast_S2048_S2048x1_0
        (addf (Host.reduceAdd wq (constant S_ .f32 0x00000000#32) reducesTo_S768x2048_S2048_d0 h_S_)
              (Host.reduceAdd wz (constant S_ .f32 0x00000000#32) reducesTo_S512x2048_S2048_d0 h_S_))⟩,
     ⟨S2048x127, broadcastInDim S2048x127 ![] bcast_S_S2048x127 (constant S_ .f32 0x00000000#32)⟩]
    concatenates_S2048x64_S2048x64_S2048x1_S2048x127_S2048x256_d1) bitsLt_bf16_f32

/-- Column h < 64 at row k is entry (h, k) of wb. -/
theorem wcat_gate (wq : FVec Ideal S768x2048 .f32) (wz : FVec Ideal S512x2048 .f32) (wb wa : FVec Ideal S64x2048 .f32)
    (k : Fin 2048) (h : Fin 64) :
    wcat (F := Ideal) wq wz wb wa (ix2 k (⟨h.val, by omega⟩ : Fin 256)) = wb (ix2 h k) := by
  -- the narrowing is the identity; column h lies in the first piece (columns 0..63), at its own column h
  unfold wcat
  rw [truncf_apply]
  refine Eq.trans (concatenate_apply_piece (t := S2048x256) 1 _ _ _ 0 ?_ S2048x64
    (transpose S2048x64 [1, 0] wb transposes_S64x2048_S2048x64_1_0) ?_ ?_ 0 ?_ (ix2 k h) ?_ ?_) ?_
  · exact Nat.zero_lt_succ _
  · rfl
  · rfl
  · rfl
  · intro b hb
    match b with
    | ⟨0, _⟩ => rfl
    | ⟨1, _⟩ => exact absurd rfl hb
  · exact Nat.zero_add _
  -- the transpose at (k, h) is wb at (h, k)
  · exact transpose_ix2_apply wb _ k h

/-- Column 64 + h at row k is entry (h, k) of wa. -/
theorem wcat_val (wq : FVec Ideal S768x2048 .f32) (wz : FVec Ideal S512x2048 .f32) (wb wa : FVec Ideal S64x2048 .f32)
    (k : Fin 2048) (h : Fin 64) :
    wcat (F := Ideal) wq wz wb wa (ix2 k (⟨64 + h.val, by omega⟩ : Fin 256)) = wa (ix2 h k) := by
  -- the narrowing is the identity; column 64 + h lies in the second piece (columns 64..127), 64 columns after
  -- the first, at its own column h
  unfold wcat
  rw [truncf_apply]
  refine Eq.trans (concatenate_apply_piece (t := S2048x256) 1 _ _ _ 1 ?_ S2048x64
    (transpose S2048x64 [1, 0] wa transposes_S64x2048_S2048x64_1_0) ?_ ?_ 64 ?_ (ix2 k h) ?_ ?_) ?_
  · exact Nat.succ_lt_succ (Nat.zero_lt_succ _)
  · rfl
  · rfl
  · rfl
  · intro b hb
    match b with
    | ⟨0, _⟩ => rfl
    | ⟨1, _⟩ => exact absurd rfl hb
  · rfl
  -- the transpose at (k, h) is wa at (h, k)
  · exact transpose_ix2_apply wa _ k h

/-- Column 128 at row k is the k-th column sum of wq plus the k-th column sum of wz. -/
theorem wcat_lin (wq : FVec Ideal S768x2048 .f32) (wz : FVec Ideal S512x2048 .f32) (wb wa : FVec Ideal S64x2048 .f32)
    (k : Fin 2048) :
    wcat (F := Ideal) wq wz wb wa (ix2 k (⟨128, by omega⟩ : Fin 256))
      = (∑ d : Fin 768, wq (ix2 d k)) + ∑ d : Fin 512, wz (ix2 d k) := by
  -- the two sums run over axis 0 of a rank-2 array and keep axis 1
  have hq : S768x2048.Reduces [0] S2048 := by decide
  have hz : S512x2048.Reduces [0] S2048 := by decide
  -- the narrowing is the identity; column 128 is the third piece's only column, 64 + 64 columns after the first two
  unfold wcat
  rw [truncf_apply]
  refine Eq.trans (concatenate_apply_piece (t := S2048x256) 1 _ _ _ 2 ?_ S2048x1
    (broadcastInDim S2048x1 ![0] bcast_S2048_S2048x1_0
        (addf (Host.reduceAdd (F := Ideal) wq (constant (F := Ideal) S_ .f32 0x00000000#32) reducesTo_S768x2048_S2048_d0 h_S_)
              (Host.reduceAdd (F := Ideal) wz (constant (F := Ideal) S_ .f32 0x00000000#32) reducesTo_S512x2048_S2048_d0 h_S_)))
    ?_ ?_ 128 ?_ (ix2 k (0 : Fin 1)) ?_ ?_) ?_
  · exact Nat.succ_lt_succ (Nat.succ_lt_succ (Nat.zero_lt_succ _))
  · rfl
  · rfl
  · rfl
  · intro b hb
    match b with
    | ⟨0, _⟩ => rfl
    | ⟨1, _⟩ => exact absurd rfl hb
  · rfl
  -- the broadcast along the new unit axis reads the vector of sums at k
  · refine Eq.trans (broadcastInDim_apply ![0] bcast_S2048_S2048x1_0 _ (ix2 k (0 : Fin 1)) (ix1 k) ?_) ?_
    · intro a
      match a with
      | ⟨0, _⟩ => rfl
    -- each host sum is its initial value 0 plus the sum over d of the entry (d, k)
    · rw [addf_apply]
      congr 1
      · refine Eq.trans (Ideal.hostReduceAdd_single reducesTo_S768x2048_S2048_d0 hq wq _ (ix1 k)) ?_
        rw [constant_apply, Ideal.ofBits_zero_f32, zero_add]
        refine Finset.sum_congr rfl fun d _ => congrArg wq (funext fun c => ?_)
        match c with
        | ⟨0, _⟩ => exact Fin.ext rfl
        | ⟨1, _⟩ => exact Fin.ext rfl
      · refine Eq.trans (Ideal.hostReduceAdd_single reducesTo_S512x2048_S2048_d0 hz wz _ (ix1 k)) ?_
        rw [constant_apply, Ideal.ofBits_zero_f32, zero_add]
        refine Finset.sum_congr rfl fun d _ => congrArg wz (funext fun c => ?_)
        match c with
        | ⟨0, _⟩ => exact Fin.ext rfl
        | ⟨1, _⟩ => exact Fin.ext rfl

end Cert.KernelIdeal.Wcat

end
-- ==== Proof.Payload.lean ====
/-
  What the kernel body stores, at row r of its block: with X the block of 1024 activation rows and W the fused
  weight matrix [2048, 256], the product X·W is cut into columns 0..63 (the gate's arguments), 64..127 (the gated
  values) and column 128 (the linear part), and the row's result is
      (X·W)(r,128) + Σ_h (X·W)(r,64+h) · σ((X·W)(r,h)).
-/
import proofs.«182257_j59442347376718_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- Column j of the product at row r. -/
def col (x0 : Vec Ideal S1x1024x2048 .f32) (w : Vec Ideal S2048x256 .bf16) (r : Fin 1024) (j : Fin 256) : EReal :=
  ∑ k : Fin 2048, x0 (ix3 0 r k) * w (ix2 k j)

/-! ## A vector viewed as a column -/

/-- A vector [a] cast to the column [a, 1] reads, at (i, z), the operand at i, whatever the unit coordinate z. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-! ## The product's operand indices: output (r, j) and contraction coordinate k meet X at (r, k) and W at (k, j) -/

theorem lhs_axis0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl

theorem lhs_axis1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q

theorem rhs_axis0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q

theorem rhs_axis1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The product into the zero accumulator, at (r, j): the sum over k of A(r, k) · B(k, j). -/
theorem product_apply (A : FVec Ideal S1024x2048 .bf16) (B : FVec Ideal S2048x256 .bf16) (r : Fin 1024) (j : Fin 256) :
    matmul dot_S1024x2048_S2048x256_S1024x256_1_0_0_1_n_n none A B (constant (F := Ideal) S1024x256 .f32 0x00000000#32) (ix2 r j)
      = ∑ k : Fin 2048, A (ix2 r k) * B (ix2 k j) := by
  refine (Ideal.matmul_constant_zero_apply dot_S1024x2048_S2048x256_S1024x256_1_0_0_1_n_n none A B (ix2 r j)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r j) ((contrEquiv1 dot_S1024x2048_S2048x256_S1024x256_1_0_0_1_n_n 2048 rfl rfl).symm k) = ix2 r k := funext fun a => Fin.ext (by
    match a with
    | ⟨0, _⟩ => exact lhs_axis0 _ _
    | ⟨1, _⟩ => exact (lhs_axis1 _ _).trans hk)
  have er : dot_S1024x2048_S2048x256_S1024x256_1_0_0_1_n_n.rhsIdx (ix2 r j) ((contrEquiv1 dot_S1024x2048_S2048x256_S1024x256_1_0_0_1_n_n 2048 rfl rfl).symm k) = ix2 k j := funext fun a => Fin.ext (by
    match a with
    | ⟨0, _⟩ => exact (rhs_axis0 _ _).trans hk
    | ⟨1, _⟩ => exact rhs_axis1 _ _)
  rw [el, er]

/-- The product of the kernel's two operands as it forms them — the block with its unit axis dropped and narrowed
    (the identity on extended reals), the weights cast to their own shape — is the column of X·W. -/
theorem product_col (x0 : Vec Ideal S1x1024x2048 .f32) (w : Vec Ideal S2048x256 .bf16)
    (h1 : S1x1024x2048.ShapeCasts S1024x2048) (hlt : FTy.bits .bf16 < FTy.bits .f32) (h2 : S2048x256.ShapeCasts S2048x256)
    (r : Fin 1024) (j : Fin 256) :
    matmul dot_S1024x2048_S2048x256_S1024x256_1_0_0_1_n_n none
        (truncf .bf16 (shapeCast S1024x2048 x0 h1) hlt : FVec Ideal S1024x2048 .bf16) (shapeCast S2048x256 w h2 : FVec Ideal S2048x256 .bf16)
        (constant (F := Ideal) S1024x256 .f32 0x00000000#32) (ix2 r j)
      = col x0 w r j := by
  refine (product_apply _ _ r j).trans ?_
  unfold col
  refine Finset.sum_congr rfl fun k _ => ?_
  refine congrArg₂ (· * ·) ?_ ?_
  · exact (truncf_apply _ hlt _).trans (shapeCast_1ab_ab_apply x0 h1 r k)
  · exact congrFun (shapeCast_self w h2) _

/-- The sum over the 64 lanes of a [1024, 64] array, at row r. -/
theorem lanes_apply (v : FVec Ideal S1024x64 .f32) (hr : S1024x64.Reduces [1] S1024) (hφ : FKind.Formats .f32)
    (hacc : (0x00000000#32 : BitVec 32) = 0x00000000#32) (r : Fin 1024) :
    multiReduction (F := Ideal) .add [1] S1024 v 0x00000000#32 hr hφ hacc (ix1 r) = ∑ h : Fin 64, v (ix2 r h) := by
  refine (Ideal.multiReduction_add_single v 0x00000000#32 hr hφ hacc (ix1 r)).trans ?_
  refine Finset.sum_congr rfl fun h _ => congrArg v ?_
  exact funext fun a => Fin.ext (by
    match a with
    | ⟨0, _⟩ => rfl
    | ⟨1, _⟩ => rfl)

theorem pay_apply [Cert.KernelIdeal.Facts] (x0 : Vec Ideal S1x1024x2048 .f32) (w : Vec Ideal S2048x256 .bf16) (r : Fin 1024) :
    k0_pay1 (F := Ideal) x0 w (ix3 0 r 0)
      = col x0 w r ⟨128, by omega⟩ + ∑ h : Fin 64, col x0 w r ⟨64 + h.val, by omega⟩ * Ideal.logistic (col x0 w r ⟨h.val, by omega⟩) := by
  unfold k0_pay1
  refine (shapeCast_ab_1ab_apply _ _ 0 r 0).trans ?_
  refine (addf_apply _ _ _).trans ?_
  refine congrArg₂ (· + ·) ?_ ?_
  · refine (slice2_axis1_apply 128 _ _ r 0 ⟨128, by omega⟩ rfl).trans ?_
    exact product_col x0 w _ _ _ r _
  · refine (shapeCast_a_a1_apply _ _ r 0).trans ?_
    refine (lanes_apply _ _ _ _ r).trans ?_
    refine Finset.sum_congr rfl fun h _ => ?_
    refine (mulf_apply _ _ _).trans ?_
    refine congrArg₂ (· * ·) ?_ ?_
    · refine (slice2_axis1_apply 64 _ _ r h ⟨64 + h.val, by omega⟩ rfl).trans ?_
      exact product_col x0 w _ _ _ r _
    · show Ideal.logistic _ = _
      refine congrArg Ideal.logistic ?_
      refine Eq.trans (slice2_axis1_apply 0 _ _ r h ⟨h.val, by omega⟩ (Nat.zero_add _).symm) ?_
      exact product_col x0 w _ _ _ r _

end Cert.KernelIdeal.Payload

end
-- ==== Proof.Spec.lean ====
/-
  The function both programs compute, over the extended reals.

  For a batch b and position s, with x the activations [4, 8192, 2048] and four weight matrices whose rows are
  feature vectors of length 2048: the result is
      Σ_d ⟨x(b,s), wq(d)⟩  +  Σ_h Σ_e ⟨x(b,s), wz(8h+e)⟩  +  Σ_h ⟨x(b,s), wa(h)⟩ · σ(⟨x(b,s), wb(h)⟩)
  with σ the logistic function. The first two sums are linear in x(b,s), so they equal one inner product of
  x(b,s) with the vector of column sums of wq and wz; that is the arrangement `fused`, and the sum of projections is
  the arrangement `projected`. The two agree when the entries are real numbers (Law.lean).
-/
import Idealize.ShloMosaic.PureOps.Ideal
import Idealize.ShloMosaic.Lib.ValueIdx

noncomputable section

namespace Cert.GatedSum

open Idealize.ShloMosaic Idealize.ShloMosaic.ValueIdx

/-- The activations, a weight matrix of n rows, and the result, as plain functions of literal index types. -/
abbrev Acts := (⟨3, ![4, 8192, 2048]⟩ : Shape).Idx → EReal
abbrev Wts (n : Nat) := (⟨2, ![n, 2048]⟩ : Shape).Idx → EReal
abbrev Res := (⟨3, ![4, 8192, 1]⟩ : Shape).Idx → EReal

/-- The inner product of the activation vector at (b, s) with row d of a weight matrix. -/
def rowDot {n : Nat} (x : Acts) (w : Wts n) (b : Fin 4) (s : Fin 8192) (d : Fin n) : EReal :=
  ∑ k : Fin 2048, x (ix3 b s k) * w (ix2 d k)

/-- The gated part: over the 64 heads, the wa-projection times the logistic function of the wb-projection. -/
def gated (x : Acts) (wb wa : Wts 64) (b : Fin 4) (s : Fin 8192) : EReal :=
  ∑ h : Fin 64, rowDot x wa b s h * Ideal.logistic (rowDot x wb b s h)

/-- Row 8h + e of the 512-row matrix: element e of head h. -/
def headRow (h : Fin 64) (e : Fin 8) : Fin 512 := ⟨8 * h.val + e.val, by omega⟩

/-- Column sums first: one inner product with the summed columns of wq and wz, plus the gated part. -/
def fused (x : Acts) (wq : Wts 768) (wz : Wts 512) (wb wa : Wts 64) (b : Fin 4) (s : Fin 8192) : EReal :=
  (∑ k : Fin 2048, x (ix3 b s k) * ((∑ d : Fin 768, wq (ix2 d k)) + ∑ d : Fin 512, wz (ix2 d k))) + gated x wb wa b s

/-- Projections first: every projection computed, then summed (the 512 rows of wz head by head), plus the gated part. -/
def projected (x : Acts) (wq : Wts 768) (wz : Wts 512) (wb wa : Wts 64) (b : Fin 4) (s : Fin 8192) : EReal :=
  ((∑ d : Fin 768, rowDot x wq b s d) + ∑ h : Fin 64, ∑ e : Fin 8, rowDot x wz b s (headRow h e)) + gated x wb wa b s

/-- The result array, [4, 8192, 1], in the column-sums-first arrangement. -/
def result (x : Acts) (wq : Wts 768) (wz : Wts 512) (wb wa : Wts 64) : Res :=
  fun i => fused x wq wz wb wa (i 0) (i 1)

theorem result_apply (x : Acts) (wq : Wts 768) (wz : Wts 512) (wb wa : Wts 64) (b : Fin 4) (s : Fin 8192) (z : Fin 1) :
    result x wq wz wb wa (ix3 b s z) = fused x wq wz wb wa b s := rfl

/-- Every entry of an array is a real number. -/
def AllReal {S : Shape} (a : S.Idx → EReal) : Prop := ∀ i, ∃ r : ℝ, a i = (r : EReal)

end Cert.GatedSum

end
-- ==== Proof.KernelValue.lean ====
/-
  The result array after the idealized kernel's run, as one function of the argument arrays.

  Grid point t = (b, q) stages the 1024 activation rows s = 1024·q + r of batch b, and the whole fused weight matrix, whose
  column h < 64 is row h of wb, column 64 + h row h of wa, and column 128 the column sums of wq and wz added. Row r of
  what the point stores is therefore ⟨x(b,s), colsum⟩ + Σ_h ⟨x(b,s), wa(h)⟩·σ(⟨x(b,s), wb(h)⟩): entry (b, s) of `result`.
  The 32 blocks written back tile the result array [4, 8192, 1], so the array ends holding `result` everywhere.
-/
import proofs.«182257_j59442347376718_1_alg».proof.Proof.LaunchedIdeal
import proofs.«182257_j59442347376718_1_alg».proof.Proof.Wcat
import proofs.«182257_j59442347376718_1_alg».proof.Proof.Payload
import proofs.«182257_j59442347376718_1_alg».proof.Proof.Spec
import Idealize.ShloMosaic.Lib.StableHlo.Run
import Idealize.ShloMosaic.Lib.Pipeline.Value

set_option maxRecDepth 16384

noncomputable section

namespace Cert.KernelIdeal.Whole

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Launched Cert.GatedSum

variable (m : (ℓ : Loc nD τ sig) → Buf (Elt Ideal) ℓ) (ρ : Dev nD → PrngReg)

/-! ## The arrays the launch finds -/

/-- The five argument arrays of core c, as plain functions. -/
abbrev xs (c : Dev nD) : Acts := m ((c : Thread nD τ).loc main_arg0)
abbrev wqs (c : Dev nD) : Wts 768 := m ((c : Thread nD τ).loc main_arg1)
abbrev wzs (c : Dev nD) : Wts 512 := m ((c : Thread nD τ).loc main_arg2)
abbrev wbs (c : Dev nD) : Wts 64 := m ((c : Thread nD τ).loc main_arg3)
abbrev was (c : Dev nD) : Wts 64 := m ((c : Thread nD τ).loc main_arg4)

/-- The second window's array, when the launch begins, is the fused weight matrix of the four weight arguments. -/
theorem V_wts (c : Dev nD) :
    (V m c main_v8 : S2048x256.Idx → EReal) = Cert.KernelIdeal.Wcat.wcat (F := Ideal) (wqs m c) (wzs m c) (wbs m c) (was m c) := by
  dsimp only [V, hostOps0]
  after_results
  rfl

/-! ## One row of one block -/

/-- If the row of the activation block that a block index j lies in is row (b, s) of the activations, and the weight block is the
    fused matrix, the stored value at j is entry (b, s) of the result. -/
theorem row_value (x : Acts) (wq : Wts 768) (wz : Wts 512) (wb wa : Wts 64)
    (x0 : Vec Ideal S1x1024x2048 .f32) (w : Vec Ideal S2048x256 .bf16) (b : Fin 4) (s : Fin 8192) (j : S1x1024x1.Idx)
    (hx0 : ∀ k : Fin 2048, x0 (ix3 (0 : Fin 1) (⟨(j 1).val, (j 1).isLt⟩ : Fin 1024) k) = x (ix3 b s k))
    (hw : ∀ (k : Fin 2048) (j' : Fin 256), w (ix2 k j') = Cert.KernelIdeal.Wcat.wcat (F := Ideal) wq wz wb wa (ix2 k j')) :
    k0_pay1 (F := Ideal) x0 w j = fused x wq wz wb wa b s := by
  have hj0 : (j 0).val < 1 := (j 0).isLt
  have hj2 : (j 2).val < 1 := (j 2).isLt
  have hj : j = ix3 (0 : Fin 1) (⟨(j 1).val, (j 1).isLt⟩ : Fin 1024) (0 : Fin 1) := by
    funext a; apply Fin.ext
    match a with
    | ⟨0, _⟩ => show (j 0).val = 0; omega
    | ⟨1, _⟩ => rfl
    | ⟨2, _⟩ => show (j 2).val = 0; omega
  generalize (⟨(j 1).val, (j 1).isLt⟩ : Fin 1024) = r at hj hx0
  subst hj
  rw [Cert.KernelIdeal.Payload.pay_apply]
  unfold Cert.KernelIdeal.Payload.col fused gated rowDot
  simp only [hw, Cert.KernelIdeal.Wcat.wcat_lin, Cert.KernelIdeal.Wcat.wcat_gate, Cert.KernelIdeal.Wcat.wcat_val]
  simp only [hx0]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation window moves with the result window along the batch and the row
    axes, both stay at 0 along the last axis, the weight window stays at (0, 0), and the result's block indices range over 4 × 8. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0
    ∧ win0_2.index t (0 : Fin 3) ≤ 3 ∧ win0_2.index t (1 : Fin 3) ≤ 7 :=
  (by decide +kernel : ∀ t : Fin grid0.N, _)

/-- Every (batch, row block) is some grid point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- What point t writes back is block t of `result` of the argument arrays. -/
theorem flushed_eq (c : Dev nD) (t : Fin cfg0.N) :
    (dats m 0 c).flushed 2 t = ((cfg0.win 2).blk t).view.read (Elt Ideal) (result (xs m c) (wqs m c) (wzs m c) (wbs m c) (was m c)) := by
  show (cfg0.win 2).cut (grid0.coords t) ((dats m 0 c).after 2 t) = _
  rw [after_res]
  unfold stored
  rw [View.canon_unit_zero hz3]
  simp only [View.ld_unit_zero (S := S1x1024x2048) hz3, View.ld_unit_zero (S := S2048x256) hz2]
  obtain ⟨e0, e1, e2, e3, e4, e5, e6, e7⟩ := idx_facts t
  funext j
  have hb : win0_2.index t (0 : Fin 3) < 4 := by omega
  have hq : win0_2.index t (1 : Fin 3) < 8 := by omega
  have hj0 : (j 0).val < 1 := (j 0).isLt
  have hj1 : (j 1).val < 1024 := (j 1).isLt
  have hj2 : (j 2).val < 1 := (j 2).isLt
  have hemb : ((cfg0.win 2).blk t).view.emb j
      = ix3 (⟨win0_2.index t (0 : Fin 3), hb⟩ : Fin 4) (⟨1024 * win0_2.index t (1 : Fin 3) + (j 1).val, by omega⟩ : Fin 8192) (0 : Fin 1) := by
    funext a; apply Fin.ext
    match a with
    | ⟨0, _⟩ => show win0_2.index t (0 : Fin 3) * 1 + 1 * (j 0).val = win0_2.index t (0 : Fin 3); omega
    | ⟨1, _⟩ => show win0_2.index t (1 : Fin 3) * 1024 + 1 * (j 1).val = 1024 * win0_2.index t (1 : Fin 3) + (j 1).val; omega
    | ⟨2, _⟩ => show win0_2.index t (2 : Fin 3) * 1 + 1 * (j 2).val = 0; omega
  show k0_pay1 (iblk m c 0 t) (iblk m c 1 t) j
      = result (xs m c) (wqs m c) (wzs m c) (wbs m c) (was m c) (((cfg0.win 2).blk t).view.emb j)
  rw [hemb, result_apply]
  refine row_value (xs m c) (wqs m c) (wzs m c) (wbs m c) (was m c) (iblk m c 0 t) (iblk m c 1 t) _ _ j ?_ ?_
  · intro k
    show V m c main_arg0 (((cfg0.win 0).blk t).view.emb (ix3 (0 : Fin 1) (⟨(j 1).val, hj1⟩ : Fin 1024) k)) = _
    refine (congrFun (V_main_arg0 m c) _).trans (congrArg (xs m c) ?_)
    funext a; apply Fin.ext
    match a with
    | ⟨0, _⟩ => show win0_0.index t (0 : Fin 3) * 1 + 1 * 0 = win0_2.index t (0 : Fin 3); omega
    | ⟨1, _⟩ => show win0_0.index t (1 : Fin 3) * 1024 + 1 * (j 1).val = 1024 * win0_2.index t (1 : Fin 3) + (j 1).val; omega
    | ⟨2, _⟩ => show win0_0.index t (2 : Fin 3) * 2048 + 1 * k.val = k.val; omega
  · intro k j'
    show V m c main_v8 (((cfg0.win 1).blk t).view.emb (ix2 k j')) = _
    refine (congrFun (V_wts m c) _).trans (congrArg _ ?_)
    funext a; apply Fin.ext
    match a with
    | ⟨0, _⟩ => show win0_1.index t (0 : Fin 2) * 2048 + 1 * k.val = k.val; omega
    | ⟨1, _⟩ => show win0_1.index t (1 : Fin 2) * 256 + 1 * j'.val = j'.val; omega

/-- An index of the result array is in point t's block iff each coordinate is in the block's range on its axis. -/
theorem mem_blk (t : Fin cfg0.N) (i : S4x8192x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v9).slice (win0_2.rect t)).set ↔ _
  rw [View.set_slice_whole, Rect.mem_set_unit]
  exact Iff.rfl

/-- Every index (b, s, 0) of the result array is in the block of the point (b, s / 1024), which writes it back. -/
theorem cover (i : S4x8192x1.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- The result array after the run is `result` of the argument arrays. -/
theorem final (c : Dev nD) :
    (dats m 0 c).arrAt 2 cfg0.N = result (xs m c) (wqs m c) (wzs m c) (wbs m c) (was m c) :=
  (dats m 0 c).arrAt_eq_of_cover 2 (result (xs m c) (wqs m c) (wzs m c) (wbs m c) (was m c)) (fun t _ => flushed_eq m c t) cover

/-! ## The run, read -/

/-- Every weakly fair execution of the idealized kernel's @main terminates without a fault, with the result array at
    `result` of the argument arrays and the argument arrays as launched. -/
theorem run : θ_run defs (onTc (τ := τ) (main (F := Ideal))) ⟨m, fun _ => 0, ρ⟩ fun r => ∀ c : Dev nD,
      r.2.mem ((c.tc : Thread nD τ).loc main_v9) = result (xs m c) (wqs m c) (wzs m c) (wbs m c) (was m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Whole

end
-- ==== Proof.LibLogistic.lean ====
/-
  The logistic function spelt out in host operations, on the extended reals.

  On the host the logistic function of y is computed as one over (one plus the exponential of minus y): a negation, an
  exponential, an addition of the float one and a division into the float one. On the extended reals that expression IS
  the logistic function (0 at −∞, 1 at +∞, 1/(1+e^(−y)) at a real y), and the float word of one denotes the number one.
-/
import Idealize.ShloMosaic.PureOps.Ideal

noncomputable section

namespace Cert.LogisticSpelt

open Idealize.ShloMosaic

/-- The 32-bit float word of one denotes one. -/
theorem one_word : Ideal.ofBits .f32 0x3F800000#32 = 1 := by
  simp [Ideal.ofBits, Ideal.ieee, -EReal.coe_mul]; norm_num

/-- One over one plus the exponential of the negative, in the host's operations, is the logistic function. -/
theorem logistic_spelt (y : Ideal .f32) :
    FloatOps.hostDivf (1 : Ideal .f32) (FloatOps.addf 1 (FloatOps.hostUnary .exp (FloatOps.hostNegf y))) = Ideal.logistic y := rfl

/-- The same in a kernel's operations. -/
theorem logistic_spelt_kernel (y : Ideal .f32) :
    FloatOps.divf (1 : Ideal .f32) (FloatOps.addf 1 (FloatOps.exp (FloatOps.negf y))) = Ideal.logistic y := rfl

end Cert.LogisticSpelt

end
-- ==== Proof.RefValue.lean ====
/-
  The reference's result, read index by index: three groups of projections summed (the 512 projections of wz
  first over the 8 elements of a head, then over the 64 heads), and the logistic function spelt as one over one plus
  the exponential of the negative. It is the arrangement `projected`.
-/
import proofs.«182257_j59442347376718_1_alg».proof.Proof.Gen.ReferenceIdeal.Read
import proofs.«182257_j59442347376718_1_alg».proof.Proof.Spec
import proofs.«182257_j59442347376718_1_alg».proof.Proof.LibLogistic

noncomputable section

namespace Cert.ReferenceIdeal.RefValue

open Idealize.ShloMosaic Idealize.ShloMosaic.ValueIdx Cert.ReferenceIdeal Cert.ReferenceIdeal.Gen Cert.GatedSum

/-! The composed index functions of the reference's stages, at an index given by coordinates. -/

private theorem idx12 (b : Fin 4) (s : Fin 8192) (z : Fin 1) (k : Fin 768) :
    Read.idx_main_v12 (Read.idx_main_v13 (ix3 b s z)) k = ix3 b s k :=
  funext fun a => Fin.ext (by match a with | ⟨0, _⟩ => rfl | ⟨1, _⟩ => rfl | ⟨2, _⟩ => rfl)

private theorem idx15 (b : Fin 4) (s : Fin 8192) (z : Fin 1) (k : Fin 64) :
    Read.idx_main_v15 (Read.idx_main_v16 (ix3 b s z)) k = ix3 b s k :=
  funext fun a => Fin.ext (by match a with | ⟨0, _⟩ => rfl | ⟨1, _⟩ => rfl | ⟨2, _⟩ => rfl)

private theorem idx18 (b : Fin 4) (s : Fin 8192) (z : Fin 1) (k : Fin 64) :
    Read.idx_main_v18 (Read.idx_main_v19 (ix3 b s z)) k = ix3 b s k :=
  funext fun a => Fin.ext (by match a with | ⟨0, _⟩ => rfl | ⟨1, _⟩ => rfl | ⟨2, _⟩ => rfl)

private theorem idx14 (b : Fin 4) (s : Fin 8192) (h : Fin 64) (e : Fin 8) :
    Read.idx_main_v14 (ix3 b s h) e = ix4 b s h e :=
  funext fun a => Fin.ext (by match a with | ⟨0, _⟩ => rfl | ⟨1, _⟩ => rfl | ⟨2, _⟩ => rfl | ⟨3, _⟩ => rfl)

/-- The reshape [4, 8192, 512] → [4, 8192, 64, 8] reads element e of head h at column 8h + e. -/
private theorem idx2 (b : Fin 4) (s : Fin 8192) (h : Fin 64) (e : Fin 8) :
    Read.idx_main_v2 (ix4 b s h e) = ix3 b s (headRow h e) :=
  funext fun a => Fin.ext (by
    have hb := b.isLt; have hs := s.isLt; have hh := h.isLt; have he := e.isLt
    match a with
    | ⟨0, _⟩ => show (((b.val * 8192 + s.val) * 64 + h.val) * 8 + e.val) / 4194304 = b.val; omega
    | ⟨1, _⟩ => show (((b.val * 8192 + s.val) * 64 + h.val) * 8 + e.val) / 512 % 8192 = s.val; omega
    | ⟨2, _⟩ => show (((b.val * 8192 + s.val) * 64 + h.val) * 8 + e.val) % 512 = 8 * h.val + e.val; omega)

private theorem lidx0 (b : Fin 4) (s : Fin 8192) (d : Fin 768) (k : Fin 2048) : Read.lidx_main_v0 (ix3 b s d) k = ix3 b s k :=
  funext fun a => Fin.ext (by match a with | ⟨0, _⟩ => rfl | ⟨1, _⟩ => rfl | ⟨2, _⟩ => rfl)
private theorem ridx0 (b : Fin 4) (s : Fin 8192) (d : Fin 768) (k : Fin 2048) : Read.ridx_main_v0 (ix3 b s d) k = ix2 d k :=
  funext fun a => Fin.ext (by match a with | ⟨0, _⟩ => rfl | ⟨1, _⟩ => rfl)
private theorem lidx1 (b : Fin 4) (s : Fin 8192) (d : Fin 512) (k : Fin 2048) : Read.lidx_main_v1 (ix3 b s d) k = ix3 b s k :=
  funext fun a => Fin.ext (by match a with | ⟨0, _⟩ => rfl | ⟨1, _⟩ => rfl | ⟨2, _⟩ => rfl)
private theorem ridx1 (b : Fin 4) (s : Fin 8192) (d : Fin 512) (k : Fin 2048) : Read.ridx_main_v1 (ix3 b s d) k = ix2 d k :=
  funext fun a => Fin.ext (by match a with | ⟨0, _⟩ => rfl | ⟨1, _⟩ => rfl)
private theorem lidx3 (b : Fin 4) (s : Fin 8192) (d : Fin 64) (k : Fin 2048) : Read.lidx_main_v3 (ix3 b s d) k = ix3 b s k :=
  funext fun a => Fin.ext (by match a with | ⟨0, _⟩ => rfl | ⟨1, _⟩ => rfl | ⟨2, _⟩ => rfl)
private theorem ridx3 (b : Fin 4) (s : Fin 8192) (d : Fin 64) (k : Fin 2048) : Read.ridx_main_v3 (ix3 b s d) k = ix2 d k :=
  funext fun a => Fin.ext (by match a with | ⟨0, _⟩ => rfl | ⟨1, _⟩ => rfl)
private theorem lidx10 (b : Fin 4) (s : Fin 8192) (d : Fin 64) (k : Fin 2048) : Read.lidx_main_v10 (ix3 b s d) k = ix3 b s k :=
  funext fun a => Fin.ext (by match a with | ⟨0, _⟩ => rfl | ⟨1, _⟩ => rfl | ⟨2, _⟩ => rfl)
private theorem ridx10 (b : Fin 4) (s : Fin 8192) (d : Fin 64) (k : Fin 2048) : Read.ridx_main_v10 (ix3 b s d) k = ix2 d k :=
  funext fun a => Fin.ext (by match a with | ⟨0, _⟩ => rfl | ⟨1, _⟩ => rfl)

/-! The four projections at an index are inner products with a weight row. -/

private theorem dot0 (x : Acts) (wq : Wts 768) (b : Fin 4) (s : Fin 8192) (d : Fin 768) :
    Read.val_main_v0 (F := Ideal) x wq (ix3 b s d) = rowDot x wq b s d := by
  rw [Read.val_main_v0_apply]; unfold rowDot
  exact Finset.sum_congr rfl fun k _ => by rw [lidx0, ridx0]
private theorem dot1 (x : Acts) (wz : Wts 512) (b : Fin 4) (s : Fin 8192) (d : Fin 512) :
    Read.val_main_v1 (F := Ideal) x wz (ix3 b s d) = rowDot x wz b s d := by
  rw [Read.val_main_v1_apply]; unfold rowDot
  exact Finset.sum_congr rfl fun k _ => by rw [lidx1, ridx1]
private theorem dot3 (x : Acts) (wb : Wts 64) (b : Fin 4) (s : Fin 8192) (d : Fin 64) :
    Read.val_main_v3 (F := Ideal) x wb (ix3 b s d) = rowDot x wb b s d := by
  rw [Read.val_main_v3_apply]; unfold rowDot
  exact Finset.sum_congr rfl fun k _ => by rw [lidx3, ridx3]
private theorem dot10 (x : Acts) (wa : Wts 64) (b : Fin 4) (s : Fin 8192) (d : Fin 64) :
    Read.val_main_v10 (F := Ideal) x wa (ix3 b s d) = rowDot x wa b s d := by
  rw [Read.val_main_v10_apply]; unfold rowDot
  exact Finset.sum_congr rfl fun k _ => by rw [lidx10, ridx10]

/-! The gated term and the head sums. -/

/-- The gated term of head h: the wa-projection times the logistic function, spelt out, of the wb-projection. -/
private theorem gate11 (x : Acts) (wb wa : Wts 64) (b : Fin 4) (s : Fin 8192) (h : Fin 64) :
    Read.val_main_v11 (F := Ideal) x wb wa (ix3 b s h) = rowDot x wa b s h * Ideal.logistic (rowDot x wb b s h) := by
  rw [Read.val_main_v11_apply, Read.val_main_v9_apply, Read.val_main_v8_apply, Read.val_main_cst_0_apply,
    Read.val_main_v7_apply, Read.val_main_v6_apply, Read.val_main_cst_apply, Read.val_main_v5_apply, Read.val_main_v4_apply,
    dot10, dot3, Ideal.ofBits_def, Cert.LogisticSpelt.one_word, Cert.LogisticSpelt.logistic_spelt]
  rfl

/-- The sum over the eight elements of head h of the wz-projections. -/
private theorem head14 (x : Acts) (wz : Wts 512) (b : Fin 4) (s : Fin 8192) (h : Fin 64) :
    Read.val_main_v14 (F := Ideal) x wz (ix3 b s h) = ∑ e : Fin 8, rowDot x wz b s (headRow h e) := by
  rw [Read.val_main_v14_apply, Read.val_main_cst_2_apply, Ideal.ofBits_def, Ideal.ofBits_zero_f32, zero_add]
  exact Finset.sum_congr rfl fun e _ => by rw [idx14, Read.val_main_v2_apply, idx2, dot1]

theorem val_eq_projected (x : Acts) (wq : Wts 768) (wz : Wts 512) (wb wa : Wts 64) (b : Fin 4) (s : Fin 8192) (z : Fin 1) :
    Cert.ReferenceIdeal.Read.val_main_v20 (F := Ideal) x wq wz wb wa (ix3 b s z) = projected x wq wz wb wa b s := by
  rw [Read.val_main_v20_apply, Read.val_main_v17_apply, Read.val_main_v19_apply, Read.val_main_v13_apply, Read.val_main_v16_apply,
    Read.val_main_v12_apply, Read.val_main_v15_apply, Read.val_main_v18_apply,
    Read.val_main_cst_1_apply, Read.val_main_cst_3_apply, Read.val_main_cst_4_apply,
    Ideal.ofBits_def, Ideal.ofBits_zero_f32, zero_add, zero_add, zero_add]
  simp only [idx12, idx15, idx18, dot0, head14, gate11]
  rfl

end Cert.ReferenceIdeal.RefValue

end
-- ==== Proof.Law.lean ====
/-
  The law that joins the two arrangements: for real entries, the sum over the rows of a matrix of the inner
  products with a fixed vector is the inner product with the column sums. On the extended reals this needs the
  entries finite, since a product does not distribute over a sum at the infinities.
-/
import proofs.«182257_j59442347376718_1_alg».proof.Proof.Spec

noncomputable section

namespace Cert.GatedSum

open Idealize.ShloMosaic Idealize.ShloMosaic.ValueIdx

/-- The inclusion of the reals in the extended reals commutes with finite sums. -/
theorem law_coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The pairs (head, element) enumerate the 512 rows: (h, e) ↦ 8h + e is a bijection from Fin 64 × Fin 8 to Fin 512. -/
def law_headEquiv : Fin 64 × Fin 8 ≃ Fin 512 where
  toFun p := headRow p.1 p.2
  invFun d := (⟨d.val / 8, by omega⟩, ⟨d.val % 8, by omega⟩)
  left_inv p := by
    obtain ⟨h, e⟩ := p
    ext <;> simp [headRow] <;> omega
  right_inv d := by
    ext; simp [headRow]; omega

/-- A sum over the 512 rows is the double sum over heads and elements of a head. -/
theorem law_sum_headRow {M : Type*} [AddCommMonoid M] (f : Fin 512 → M) :
    ∑ d : Fin 512, f d = ∑ h : Fin 64, ∑ e : Fin 8, f (headRow h e) := by
  rw [← Equiv.sum_comp law_headEquiv f, Fintype.sum_prod_type]
  rfl

/-- The law over the reals: the inner product with the column sums is the sum of the inner products, the 512 rows
    of the second matrix taken head by head. -/
theorem law_real (xr : Fin 2048 → ℝ) (qr : Fin 768 → Fin 2048 → ℝ) (zr : Fin 512 → Fin 2048 → ℝ) :
    ∑ k : Fin 2048, xr k * ((∑ d : Fin 768, qr d k) + ∑ d : Fin 512, zr d k)
      = (∑ d : Fin 768, ∑ k : Fin 2048, xr k * qr d k)
        + ∑ h : Fin 64, ∑ e : Fin 8, ∑ k : Fin 2048, xr k * zr (headRow h e) k := by
  rw [← law_sum_headRow (fun d => ∑ k : Fin 2048, xr k * zr d k)]
  rw [Finset.sum_comm (f := fun d k => xr k * qr d k), Finset.sum_comm (f := fun d k => xr k * zr d k)]
  rw [← Finset.sum_add_distrib]
  refine Finset.sum_congr rfl fun k _ => ?_
  rw [mul_add, Finset.mul_sum, Finset.mul_sum]

theorem fused_eq_projected (x : Acts) (wq : Wts 768) (wz : Wts 512) (wb wa : Wts 64)
    (hx : AllReal x) (hq : AllReal wq) (hz : AllReal wz) (b : Fin 4) (s : Fin 8192) :
    fused x wq wz wb wa b s = projected x wq wz wb wa b s := by
  choose xr hxr using hx
  choose qr hqr using hq
  choose zr hzr using hz
  unfold fused projected
  congr 1
  simp only [rowDot, hxr, hqr, hzr]
  simp only [← EReal.coe_mul, ← law_coe_sum, ← EReal.coe_add]
  exact congrArg _ (law_real (fun k => xr (ix3 b s k)) (fun d k => qr (ix2 d k)) (fun d k => zr (ix2 d k)))

end Cert.GatedSum

end
-- ==== Proof.Finite.lean ====
/-
  What the precondition says: each of the five comparisons |a| < +∞, reduced by "and" over a whole array, holds, so
  every entry of every input is a real number.
-/
import proofs.«182257_j59442347376718_1_alg».proof.Pre_finite_inputs
import proofs.«182257_j59442347376718_1_alg».proof.Proof.Gen.Pre_finite_inputs
import proofs.«182257_j59442347376718_1_alg».proof.Proof.Spec
import Idealize.ShloMosaic.Lib.ReduceAll

noncomputable section

namespace Cert.GatedSum

open Idealize.ShloMosaic Idealize.ShloMosaic.ValueIdx

/-- The word 0x7F800000 denotes +∞. -/
theorem finite_inf_word : Ideal.ofBits .f32 0x7F800000#32 = (⊤ : EReal) := by
  simp [Ideal.ofBits, Ideal.ieee]

/-- An extended real whose absolute value max(v, −v) compares below +∞ is a real number: at either infinity the
    absolute value is +∞ itself. -/
theorem finite_real_of_abs_lt_inf (v : EReal)
    (h : Ideal.cmp .olt (max v (-v)) (Ideal.ofBits .f32 0x7F800000#32) = 1#1) : ∃ r : ℝ, v = (r : EReal) := by
  rw [finite_inf_word] at h
  induction v using EReal.rec with
  | bot => simp [Ideal.cmp] at h
  | top => simp [Ideal.cmp] at h
  | coe r => exact ⟨r, rfl⟩

/-- One array's part of the precondition: if the "and" over the whole array of the comparisons |a i| < +∞ is 1,
    every entry is real. -/
theorem finite_allReal_of_all {S : Shape} {axes : List (Fin S.rank)} (a : S.Idx → EReal)
    (bc : Cert.Pre_finite_inputs.S_.BroadcastsInDim S (![] : Fin 0 → Fin S.rank))
    (red : S.ReducesTo axes Cert.Pre_finite_inputs.S_) (hu : 0 < Cert.Pre_finite_inputs.S_.numel)
    (init : IVec Cert.Pre_finite_inputs.S_ 1)
    (h : Host.reduce IntOp.andi
          (cmpf .olt (Host.absf (F := Ideal) (φ := .f32) a)
            (broadcastInDim S ![] bc (constant (F := Ideal) Cert.Pre_finite_inputs.S_ .f32 0x7F800000#32)))
          init red hu ix0 = 1#1) : AllReal a := by
  haveI : Subsingleton Cert.Pre_finite_inputs.S_.Idx := ⟨fun a b => funext fun d => d.elim0⟩
  intro i
  have hi := Host.reduce_andi_all _ init red hu ix0 h i
  exact finite_real_of_abs_lt_inf (a i) hi

theorem allReal_of_pre (x : Acts) (wq : Wts 768) (wz : Wts 512) (wb wa : Wts 64)
    (h : Cert.Pre_finite_inputs.fn (F := Ideal) x wq wz wb wa = fun _ => 1#1) :
    AllReal x ∧ AllReal wq ∧ AllReal wz ∧ AllReal wb ∧ AllReal wa := by
  have h0 := congrFun h ix0
  dsimp only [Cert.Pre_finite_inputs.fn, Cert.Pre_finite_inputs.fn_part1] at h0
  obtain ⟨h1, ha⟩ := IntOp.andi_eq_one.1 h0
  obtain ⟨h2, hb⟩ := IntOp.andi_eq_one.1 h1
  obtain ⟨h3, hz⟩ := IntOp.andi_eq_one.1 h2
  obtain ⟨hx, hq⟩ := IntOp.andi_eq_one.1 h3
  exact ⟨finite_allReal_of_all x _ _ _ _ hx, finite_allReal_of_all wq _ _ _ _ hq, finite_allReal_of_all wz _ _ _ _ hz,
    finite_allReal_of_all wb _ _ _ _ hb, finite_allReal_of_all wa _ _ _ _ ha⟩

end Cert.GatedSum

end
-- ==== Proof.lean ====
/-
  The certificate: the kernel computes, for every batch b and position s,
      ⟨x(b,s), colsum(wq) + colsum(wz)⟩ + Σ_h ⟨x(b,s), wa(h)⟩ · σ(⟨x(b,s), wb(h)⟩)
  and the reference
      Σ_d ⟨x(b,s), wq(d)⟩ + Σ_h Σ_e ⟨x(b,s), wz(8h+e)⟩ + Σ_h ⟨x(b,s), wa(h)⟩ · σ(⟨x(b,s), wb(h)⟩).
  Over the extended reals the two agree because every input entry is a real number (the precondition): then the inner
  product distributes over the sums of rows. The three frames: each kernel program's launch terminates without a fault and
  writes no argument; the reference is host operations only. The idealization rewrote nothing.
-/
import proofs.«182257_j59442347376718_1_alg».proof.Defs
import proofs.«182257_j59442347376718_1_alg».proof.Proof.Gen.Kernel
import proofs.«182257_j59442347376718_1_alg».proof.Proof.Gen.KernelIdeal
import proofs.«182257_j59442347376718_1_alg».proof.Proof.Gen.ReferenceIdeal
import proofs.«182257_j59442347376718_1_alg».proof.Proof.Gen.Pre_finite_inputs
import proofs.«182257_j59442347376718_1_alg».proof.Proof.Gen.ReferenceIdeal.Run
import proofs.«182257_j59442347376718_1_alg».proof.Proof.Gen.ReferenceIdeal.Read
import proofs.«182257_j59442347376718_1_alg».proof.Proof.Launched
import proofs.«182257_j59442347376718_1_alg».proof.Proof.LaunchedIdeal
import proofs.«182257_j59442347376718_1_alg».proof.Proof.KernelValue
import proofs.«182257_j59442347376718_1_alg».proof.Proof.RefValue
import proofs.«182257_j59442347376718_1_alg».proof.Proof.Law
import proofs.«182257_j59442347376718_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.GatedSum

/-- The word-level kernel runs to the end without a fault and leaves its arguments as launched. -/
theorem frame_kernel : Cert.frame_Kernel := fun m ρ _ => Cert.Kernel.Launched.frame m ρ

/-- So does the idealized kernel. -/
theorem frame_kernelIdeal : Cert.frame_KernelIdeal := fun m ρ _ => Cert.KernelIdeal.Launched.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `result` of the arguments: the
    kernel by its run read block by block, the reference by its stages read at an index (the arrangement `projected`),
    and the two arrangements agree since the precondition makes every entry real. -/
theorem algebraic : Cert.algebraic_KernelIdeal_ReferenceIdeal := by
  intro m ρ m' ρ' hpre hagree
  refine ⟨fun c => result (Cert.KernelIdeal.Whole.xs m c) (Cert.KernelIdeal.Whole.wqs m c) (Cert.KernelIdeal.Whole.wzs m c)
    (Cert.KernelIdeal.Whole.wbs m c) (Cert.KernelIdeal.Whole.was m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v20_eq]
  obtain ⟨hx, hq, hz, -, -⟩ := allReal_of_pre (Cert.KernelIdeal.Whole.xs m c) (Cert.KernelIdeal.Whole.wqs m c)
    (Cert.KernelIdeal.Whole.wzs m c) (Cert.KernelIdeal.Whole.wbs m c) (Cert.KernelIdeal.Whole.was m c) (hpre c)
  funext i
  obtain ⟨b, s, z, rfl⟩ : ∃ (b : Fin 4) (s : Fin 8192) (z : Fin 1), i = ix3 b s z := ⟨i 0, i 1, i 2, eq_ix3 i⟩
  rw [Cert.ReferenceIdeal.RefValue.val_eq_projected]
  exact (fused_eq_projected _ _ _ _ _ hx hq hz b s).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
